-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x512 : Shape := ⟨2, ![512, 512]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S512 .f32) (main_arg8 : FVec F S512 .f32) (main_arg9 : FVec F S512 .f32) (main_arg10 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S512x512 .f32) (main_arg5 : FVec F S512 .f32) (main_arg6 : FVec F S512x512 .f32) (main_arg7 : FVec F S512 .f32) (main_arg8 : FVec F S512 .f32) (main_arg9 : FVec F S512 .f32) (main_arg10 : FVec F S512 .f32) (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x512 .f32) (main_arg1 : FVec F S16384x512 .f32) (main_arg2 : FVec F S16384x512 .f32) (main_arg3 : FVec F S16384x512 .f32) (main_arg4 : FVec F S512x512 .f32) (main_arg5 : FVec F S512 .f32) (main_arg6 : FVec F S512x512 .f32) (main_arg7 : FVec F S512 .f32) (main_arg8 : FVec F S512 .f32) (main_arg9 : FVec F S512 .f32) (main_arg10 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S16384x512 .f32 := Host.absf main_arg3
  let main_cst_4 : FVec F S_ .f32 := constant S_ .f32 0x7F800000#32
  let main_v15 : FVec F S16384x512 .f32 := broadcastInDim S16384x512 ![] bcast_S_S16384x512 main_cst_4
  let main_v16 : IVec S16384x512 1 := cmpf .olt main_v14 main_v15
  fn_part1 (F := F) main_arg4 main_arg5 main_arg6 main_arg7 main_arg8 main_arg9 main_arg10 main_v13 main_v16
-- ==== Kernel.lean ====
abbrev S16384x512 : Shape := ⟨2, ![16384, 512]⟩
abbrev S512x512 : Shape := ⟨2, ![512, 512]⟩
abbrev S512 : Shape := ⟨1, ![512]⟩
abbrev S1x512 : Shape := ⟨2, ![1, 512]⟩

abbrev nBuf : Space → Nat
  | .hbm => 14
  | .vmem => 21
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S16384x512, .f32⟩
  | .hbm, ⟨12, _⟩ => ⟨S16384x512, .f32⟩
  | .hbm, ⟨13, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512, .f32⟩
  | .local _ .vmem, ⟨10, _⟩ => ⟨S512x512, .f32⟩
  | .local _ .vmem, ⟨11, _⟩ => ⟨S512, .f32⟩
  | .local _ .vmem, ⟨12, _⟩ => ⟨S512, .f32⟩
  | .local _ .vmem, ⟨13, _⟩ => ⟨S512, .f32⟩
  | .local _ .vmem, ⟨14, _⟩ => ⟨S512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  inb_S512x512_S512x512_0_0 : ∀ a, (![0, 0] : Fin 2 → Nat) a + S512x512.size a ≤ S512x512.size a
  h_S512x512 : 0 < S512x512.numel
  inb_S512_S512_0 : ∀ a, (![0] : Fin 1 → Nat) a + S512.size a ≤ S512.size a
  h_S512 : 0 < S512.numel
  bitsLt_bf16_f32 : FTy.bits .bf16 < FTy.bits .f32
  transposes_S512x512_p1_0_S512x512 : S512x512.Transposes [1, 0] S512x512
  shapeCasts_S512_S1x512 : S512.ShapeCasts S1x512
  broadcasts_S1x512_S512x512 : S1x512.Broadcasts S512x512
  natLt_1_32 : 1 < 32
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .f32 = 32 ∨ (Rect.block (s := S16384x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S16384x512.size a
  hwx0_3 : ∀ i : grid0.Coords, EltTy.bits .f32 = 32 ∨ (Rect.block (s := S16384x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S16384x512.size a
  hwx0_11 : ∀ i : grid0.Coords, EltTy.bits .f32 = 32 ∨ (Rect.block (s := S16384x512) S512x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S16384x512.size a
  hwx0_12 : ∀ i : grid0.Coords, EltTy.bits .f32 = 32 ∨ (Rect.block (s := S16384x512) S512x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x512.size a ≤ S16384x512.size a
  hwx0_13 : ∀ i : grid0.Coords, EltTy.bits .f32 = 32 ∨ (Rect.block (s := S16384x512) S512x512.size (cc0_transform_13 i) (hinb0_13 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0_0) S512x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_1) S512x512.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v0_2) S512x512.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x512 : Shape := ⟨2, ![512, 512]⟩
abbrev S512 : Shape := ⟨1, ![512]⟩
abbrev S1x512 : Shape := ⟨2, ![1, 512]⟩
abbrev S_ : Shape := ⟨0, ![]⟩

abbrev nBuf : Space → Nat
  | .hbm => 75
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512x512, .f32⟩
  | .hbm, ⟨12, _⟩ => ⟨S16384x512, .f32⟩
  | .hbm, ⟨13, _⟩ => ⟨S1x512, .f32⟩
  | .hbm, ⟨14, _⟩ => ⟨S16384x512, .f32⟩
  | .hbm, ⟨15, _⟩ => ⟨S16384x512, .f32⟩
  | .hbm, ⟨16, _⟩ => ⟨S512x512, .f32⟩
  | .hbm, ⟨17, _⟩ => ⟨S16384x512, .f32⟩
  | .hbm, ⟨18, _⟩ => ⟨S16384x512, .f32⟩
  | .hbm, ⟨19, _⟩ => ⟨S1x512, .f32⟩
  | .hbm, ⟨20, _⟩ => ⟨S16384x512, .f32⟩
  | .hbm, ⟨21, _⟩ => ⟨S16384x512, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S16384x512, .f32⟩
  | .hbm, ⟨26, _⟩ => ⟨S1x512, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S_, .f32⟩
  | .hbm, ⟨31, _⟩ => ⟨S16384x512, .f32⟩
  | .hbm, ⟨32, _⟩ => ⟨S16384x512, .f32⟩
  | .hbm, ⟨33, _⟩ => ⟨S_, .f32⟩
  | .hbm, ⟨34, _⟩ => ⟨S16384x512, .f32⟩
  | .hbm, ⟨35, _⟩ => ⟨S16384x512, .i1⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S_, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S_, .f32⟩
  | .hbm, ⟨44, _⟩ => ⟨S16384x512, .f32⟩
  | .hbm, ⟨45, _⟩ => ⟨S16384x512, .f32⟩
  | .hbm, ⟨46, _⟩ => ⟨S_, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S_, .f32⟩
  | .hbm, ⟨52, _⟩ => ⟨S16384x512, .f32⟩
  | .hbm, ⟨53, _⟩ => ⟨S16384x512, .f32⟩
  | .hbm, ⟨54, _⟩ => ⟨S16384x512, .f32⟩
  | .hbm, ⟨55, _⟩ => ⟨S1x512, .f32⟩
  | .hbm, ⟨56, _⟩ => ⟨S16384x512, .f32⟩
  | .hbm, ⟨57, _⟩ => ⟨S16384x512, .f32⟩
  | .hbm, ⟨58, _⟩ => ⟨S_, .f32⟩
  | .hbm, ⟨59, _⟩ => ⟨S512, .f32⟩
  | .hbm, ⟨60, _⟩ => ⟨S512, .f32⟩
  | .hbm, ⟨61, _⟩ => ⟨S1x512, .f32⟩
  | .hbm, ⟨62, _⟩ => ⟨S16384x512, .f32⟩
  | .hbm, ⟨63, _⟩ => ⟨S16384x512, .f32⟩
  | .hbm, ⟨64, _⟩ => ⟨S1x512, .f32⟩
  | .hbm, ⟨65, _⟩ => ⟨S16384x512, .f32⟩
  | .hbm, ⟨66, _⟩ => ⟨S16384x512, .f32⟩
  | .hbm, ⟨67, _⟩ => ⟨S16384x512, .f32⟩
  | .hbm, ⟨68, _⟩ => ⟨S1x512, .f32⟩
  | .hbm, ⟨69, _⟩ => ⟨S16384x512, .f32⟩
  | .hbm, ⟨70, _⟩ => ⟨S16384x512, .f32⟩
  | .hbm, ⟨71, _⟩ => ⟨S_, .f32⟩
  | .hbm, ⟨72, _⟩ => ⟨S16384x512, .f32⟩
  | .hbm, ⟨73, _⟩ => ⟨S16384x512, .f32⟩
  | .hbm, ⟨74, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_7 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S512 : S_.BroadcastsInDim S512 (![] : Fin 0 → Fin S512.rank)
  bcast_S_S16384x512 : S_.BroadcastsInDim S16384x512 (![] : Fin 0 → Fin S16384x512.rank)
  dot_S16384x512_S512x512_S16384x512_1_0_0_1_n_n_wf : DotDims.WF S16384x512 S512x512 S16384x512 [1] [0] [0] [1] [] []

variable [Facts₀]

def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf

class Facts : Prop extends Facts₀ where

variable [Facts]
-- ==== Proof.Cell.lean ====
/-
  The adaptive leaky integrate-and-fire cell at ONE neuron, over the extended reals.

  A neuron receives an input drive `xw` (its weight row against the input row), a bias, and a recurrent drive `zr` (its
  recurrent row against the previous spikes); their sum is the soma current. The membrane relaxes towards the net current
  (soma minus the adaptation variable) at the rate the decay `du` sets; the neuron fires when the membrane exceeds the
  threshold 1, and a neuron that fired is reset to 0. The adaptation variable relaxes, at its own decay `dw`, towards
  60 times a mix of the previous potential and the previous spike.

  The straight-through estimator writes the spike as `h + (t - t) · s`, with `t` the membrane's distance to the threshold
  and `s` a surrogate slope. On the extended reals `t - t` is 0 exactly when `t` is a real number (at an infinity it is
  not), and 0 times ANY extended real is 0; so the estimator's value is the plain step `h` wherever `t` is real, whatever
  the slope is. That `t` is real when every input is, is closure of the reals under sums, differences, products and finite
  sums, proved here once.
-/
import Idealize.ShloMosaic.Lib.IdealHost

noncomputable section

open Idealize.ShloMosaic
open scoped BigOperators

namespace AdLIF

/-! ## The constants, as the extended reals their float words denote -/

/-- The word of 1.0: the threshold, and the 1 of every `1 - decay` and of `1 - spike`. -/
abbrev one : EReal := Ideal.ofBits .f32 0x3F800000#32
/-- The word of 0.0: what the threshold distance is compared with. -/
abbrev zero : EReal := Ideal.ofBits .f32 0x00000000#32
/-- The word of 60.0: the gain of the adaptation's drive. -/
abbrev sixty : EReal := Ideal.ofBits .f32 0x42700000#32

/-! ## The cell -/

/-- The soma current: input drive, plus bias, plus recurrent drive, added in that order. -/
def soma (xw bias zr : EReal) : EReal := xw + bias + zr

/-- The membrane before the reset: the old potential `u` kept at the rate `du`, the net current `s - w` taken in at `1 - du`. -/
def membrane (du u w s : EReal) : EReal := du * u + (one - du) * (s - w)

/-- Whether the membrane `v` is over the threshold: the one-bit answer to `v - 1 > 0` on the linear order. -/
def fired (v : EReal) : BitVec 1 := Ideal.cmp .ogt (v - one) zero

/-- The spike as a number: that bit read as 0 or 1. -/
def spike (v : EReal) : EReal := (((fired v).toNat : ℝ) : EReal)

/-- The membrane after the hard reset: kept where the neuron stayed silent, 0 where it fired. -/
def reset (v : EReal) : EReal := v * (one - spike v)

/-- The adaptation variable's update: `w` kept at the rate `dw`; at `1 - dw`, 60 times `a · u + b · z`. -/
def adapt (dw w a u b z : EReal) : EReal := dw * w + (one - dw) * (a * u + b * z) * sixty

/-! ## Real numbers among the extended reals -/

/-- An extended real that is a real number (neither infinity). -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is a real number. -/
theorem IsReal.sum {ι : Type} (s : Finset ι) (f : ι → EReal) : (∀ k ∈ s, IsReal (f k)) → IsReal (∑ k ∈ s, f k) := by
  classical
  induction s using Finset.induction_on with
  | empty => intro _; exact ⟨0, by rw [Finset.sum_empty, EReal.coe_zero]⟩
  | insert a s ha ih =>
    intro h
    rw [Finset.sum_insert ha]
    exact (h a (Finset.mem_insert_self a s)).add (ih fun k hk => h k (Finset.mem_insert_of_mem hk))

/-- The word of 1.0 denotes the real number 1. -/
theorem isReal_one : IsReal one :=
  ⟨1, by show Ideal.ofBits .f32 0x3F800000#32 = ((1 : ℝ) : EReal); rw [Ideal.ofBits_one_f32, EReal.coe_one]⟩

/-- With real inputs the membrane's distance to the threshold is a real number. -/
theorem isReal_distance {du u w xw bias zr : EReal} (hdu : IsReal du) (hu : IsReal u) (hw : IsReal w) (hxw : IsReal xw)
    (hb : IsReal bias) (hzr : IsReal zr) : IsReal (membrane du u w (soma xw bias zr) - one) :=
  (((hdu.mul hu).add ((isReal_one.sub hdu).mul (((hxw.add hb).add hzr).sub hw)))).sub isReal_one

/-! ## The straight-through estimator's value -/

/-- At a REAL threshold distance `t` the estimator's correction `(t - t) · s` is 0, whatever the slope `s`: `t - t = 0` on
    the reals, and 0 times any extended real (an infinity too) is 0. So the estimator's value is the plain step `h`. -/
theorem estimator_eq_step {t : EReal} (ht : IsReal t) (h s : EReal) : h + (t - t) * s = h := by
  obtain ⟨r, rfl⟩ := ht
  rw [← EReal.coe_sub, sub_self, EReal.coe_zero, zero_mul, add_zero]

/-! ## The spike bit as a number, two ways -/

/-- A one-bit word widened to 32 bits by zeros and then read as a SIGNED integer is the bit read unsigned: 0 or 1 either way. -/
theorem toInt_setWidth_bit (b : BitVec 1) : (b.setWidth 32).toInt = (b.toNat : Int) := by
  revert b
  decide

/-- So the two ways of turning the spike bit into a number agree. -/
theorem signed_widened_eq_unsigned (b : BitVec 1) :
    ((((b.setWidth 32).toInt : ℝ)) : EReal) = (((b.toNat : ℝ)) : EReal) := by
  rw [toInt_setWidth_bit]
  norm_cast

end AdLIF

end
-- ==== Proof.Layer.lean ====
/-
  The whole layer: 16384 batch rows of 512 neurons, each neuron the cell of the module before, as functions of the
  argument arrays index by index.

  Neuron `q` of batch row `p` is driven by row `p` of the input against row `q` of the weight matrix, and by row `p` of
  the previous spikes against row `q` of the recurrent matrix: both matrices are applied TRANSPOSED, so each drive is a dot
  product of two rows over the 512 shared coordinates. The bias, the two decays and the adaptation's two gains are one number per neuron,
  shared by all batch rows. The three results are the spikes, the potentials after the reset, and the adaptation.
-/
import proofs.«165442_j25400436588603_1_alg».proof.Proof.Cell

noncomputable section

open Idealize.ShloMosaic
open Idealize.ShloMosaic.ValueIdx (ix1 ix2)
open scoped BigOperators

namespace AdLIF

/-- Batch rows by neurons. -/
abbrev SBatch : Shape := ⟨2, ![16384, 512]⟩
/-- Neurons by input (or previous-spike) coordinates. -/
abbrev SSquare : Shape := ⟨2, ![512, 512]⟩
/-- One number per neuron. -/
abbrev SRow : Shape := ⟨1, ![512]⟩

/-- Row `p` of `A` against row `q` of `M`: the matrix `M` applied transposed. -/
def rowDot (A : SBatch.Idx → EReal) (M : SSquare.Idx → EReal) (p : Fin 16384) (q : Fin 512) : EReal :=
  ∑ k : Fin 512, A (ix2 p k) * M (ix2 q k)

/-- The membrane of neuron `q` in batch row `p`, before the reset. -/
def membraneAt (x u z w : SBatch.Idx → EReal) (Wt : SSquare.Idx → EReal) (bias : SRow.Idx → EReal)
    (Rc : SSquare.Idx → EReal) (du : SRow.Idx → EReal) (p : Fin 16384) (q : Fin 512) : EReal :=
  membrane (du (ix1 q)) (u (ix2 p q)) (w (ix2 p q)) (soma (rowDot x Wt p q) (bias (ix1 q)) (rowDot z Rc p q))

/-- The spikes: 1 where the membrane is over the threshold, else 0. -/
def spikes (x u z w : SBatch.Idx → EReal) (Wt : SSquare.Idx → EReal) (bias : SRow.Idx → EReal)
    (Rc : SSquare.Idx → EReal) (du : SRow.Idx → EReal) : SBatch.Idx → EReal :=
  fun i => spike (membraneAt x u z w Wt bias Rc du (i 0) (i 1))

/-- The potentials after the hard reset. -/
def potentials (x u z w : SBatch.Idx → EReal) (Wt : SSquare.Idx → EReal) (bias : SRow.Idx → EReal)
    (Rc : SSquare.Idx → EReal) (du : SRow.Idx → EReal) : SBatch.Idx → EReal :=
  fun i => reset (membraneAt x u z w Wt bias Rc du (i 0) (i 1))

/-- The adaptation: a function of the previous potential, spike and adaptation at the same index, and of the neuron's numbers. -/
def adaptation (u z w : SBatch.Idx → EReal) (a b dw : SRow.Idx → EReal) : SBatch.Idx → EReal :=
  fun i => adapt (dw (ix1 (i 1))) (w i) (a (ix1 (i 1))) (u i) (b (ix1 (i 1))) (z i)

/-- A dot product of rows of real arrays is a real number. -/
theorem isReal_rowDot {A : SBatch.Idx → EReal} {M : SSquare.Idx → EReal} (hA : ∀ j, IsReal (A j)) (hM : ∀ j, IsReal (M j))
    (p : Fin 16384) (q : Fin 512) : IsReal (rowDot A M p q) :=
  IsReal.sum _ _ fun k _ => (hA _).mul (hM _)

/-- With real argument arrays every neuron's distance to the threshold is a real number. -/
theorem isReal_distanceAt {x u z w : SBatch.Idx → EReal} {Wt : SSquare.Idx → EReal} {bias : SRow.Idx → EReal}
    {Rc : SSquare.Idx → EReal} {du : SRow.Idx → EReal}
    (hx : ∀ j, IsReal (x j)) (hu : ∀ j, IsReal (u j)) (hz : ∀ j, IsReal (z j)) (hw : ∀ j, IsReal (w j))
    (hWt : ∀ j, IsReal (Wt j)) (hbias : ∀ j, IsReal (bias j)) (hRc : ∀ j, IsReal (Rc j)) (hdu : ∀ j, IsReal (du j))
    (p : Fin 16384) (q : Fin 512) : IsReal (membraneAt x u z w Wt bias Rc du p q - one) :=
  isReal_distance (hdu _) (hu _) (hw _) (isReal_rowDot hx hWt p q) (hbias _) (isReal_rowDot hz hRc p q)

end AdLIF

end
-- ==== Proof.KernelPayload.lean ====
/-
  What the kernel body computes on one block of 512 batch rows, read at the index (r, q) of the block.

  The body casts both matmul operands to a narrower float format, which changes nothing on the extended reals, transposes
  the (512 × 512) matrix and multiplies into a zero accumulator: at (r, q) that is the dot product of row `r` of the
  block with row `q` of the matrix, the layer's row dot product. A per-neuron vector is viewed as one row and repeated down
  the block, so at (r, q) it reads neuron `q`'s number. The rest is pointwise. So the body's membrane, its spike bit, its
  spikes and its potentials at (r, q) are the cell's, of the block's row `r`.
-/
import proofs.«165442_j25400436588603_1_alg».proof.Proof.Gen.KernelIdeal.Skeleton
import proofs.«165442_j25400436588603_1_alg».proof.Proof.Layer
import Idealize.ShloMosaic.Lib.ValueIdx
import Idealize.ShloMosaic.Lib.Pipeline.Value
import Idealize.ShloMosaic.PureOps.Ideal.Laws

noncomputable section

open Idealize.ShloMosaic Idealize.ShloMosaic.TcCoe
open Idealize.ShloMosaic.ValueIdx (ix1 ix2)
open scoped BigOperators

namespace Cert.KernelIdeal.CellValue

open Cert.KernelIdeal Cert.KernelIdeal.Gen

/-! ## The contraction's operand indices: the left operand's row and the right operand's column are the result's, the other two axes are contracted -/

theorem lhs_row (i : S512x512.Idx) (c : dot_S512x512_S512x512_S512x512_1_0_0_1_n_n.contr.Idx) :
    (dot_S512x512_S512x512_S512x512_1_0_0_1_n_n.lhsIdx i c 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_contracted (i : S512x512.Idx) (c : dot_S512x512_S512x512_S512x512_1_0_0_1_n_n.contr.Idx) :
    (dot_S512x512_S512x512_S512x512_1_0_0_1_n_n.lhsIdx i c 1).val = (c ⟨0, by decide⟩).val :=
  dot_S512x512_S512x512_S512x512_1_0_0_1_n_n.lhsIdx_val_of_single rfl i c
theorem rhs_contracted (i : S512x512.Idx) (c : dot_S512x512_S512x512_S512x512_1_0_0_1_n_n.contr.Idx) :
    (dot_S512x512_S512x512_S512x512_1_0_0_1_n_n.rhsIdx i c 0).val = (c ⟨0, by decide⟩).val :=
  dot_S512x512_S512x512_S512x512_1_0_0_1_n_n.rhsIdx_val_of_single rfl i c
theorem rhs_col (i : S512x512.Idx) (c : dot_S512x512_S512x512_S512x512_1_0_0_1_n_n.contr.Idx) :
    (dot_S512x512_S512x512_S512x512_1_0_0_1_n_n.rhsIdx i c 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- A drive at (r, q): the block `A` against the matrix `M` transposed, both in the narrower format, into a zero
    accumulator, is row `r` of `A` against row `q` of `M`. -/
theorem drive_apply (A M : FVec Ideal S512x512 .f32) (r q : Fin 512) :
    matmul (F := Ideal) dot_S512x512_S512x512_S512x512_1_0_0_1_n_n none (truncf (F := Ideal) .bf16 A bitsLt_bf16_f32)
        (transpose S512x512 [1, 0] (truncf (F := Ideal) .bf16 M bitsLt_bf16_f32) transposes_S512x512_p1_0_S512x512)
        (constant (F := Ideal) S512x512 .f32 0x00000000#32) (ix2 r q)
      = ∑ k : Fin 512, A (ix2 r k) * M (ix2 q k) := by
  show FloatOps.matmul (F := Ideal) dot_S512x512_S512x512_S512x512_1_0_0_1_n_n none _ _ (constant (F := Ideal) S512x512 .f32 0x00000000#32) (ix2 r q) = _
  rw [Ideal.matmul_constant_zero_apply, ← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 r q) ((ValueIdx.contrEquiv1 dot_S512x512_S512x512_S512x512_1_0_0_1_n_n 512 rfl rfl).symm k) = ix2 r k := funext fun a => Fin.ext (by
    match a with
    | ⟨0, _⟩ => exact lhs_row _ _
    | ⟨1, _⟩ => exact (lhs_contracted _ _).trans hk)
  have er : dot_S512x512_S512x512_S512x512_1_0_0_1_n_n.rhsIdx (ix2 r q) ((ValueIdx.contrEquiv1 dot_S512x512_S512x512_S512x512_1_0_0_1_n_n 512 rfl rfl).symm k) = ix2 k q := funext fun a => Fin.ext (by
    match a with
    | ⟨0, _⟩ => exact (rhs_contracted _ _).trans hk
    | ⟨1, _⟩ => exact rhs_col _ _)
  rw [el, er]
  rw [transpose_apply [1, 0] (truncf (F := Ideal) .bf16 M bitsLt_bf16_f32) transposes_S512x512_p1_0_S512x512 (ix2 k q) (ix2 q k) (fun b => match b with
    | ⟨0, _⟩ => rfl
    | ⟨1, _⟩ => rfl)]
  rfl

/-! ## A per-neuron vector repeated down the block -/

/-- One row repeated down the block reads, at (r, q), the row's entry `q`. -/
theorem rowRepeated_apply (y : FVec Ideal S1x512 .f32) (r q : Fin 512) :
    broadcastTo S512x512 y broadcasts_S1x512_S512x512 (ix2 r q) = y (ix2 (0 : Fin 1) q) :=
  broadcastTo_apply _ _ (ix2 r q) (ix2 (0 : Fin 1) q) (fun a => match a with
    | ⟨0, _⟩ => by show 0 = (if (1 : Nat) = 1 then 0 else r.val); rw [if_pos rfl]
    | ⟨1, _⟩ => by show q.val = (if (512 : Nat) = 1 then 0 else q.val); rw [if_neg (by decide)])

/-- A vector viewed as one row reads, at (0, q), its entry `q`. -/
theorem asRow_apply (v : FVec Ideal S512 .f32) (q : Fin 512) :
    shapeCast S1x512 v shapeCasts_S512_S1x512 (ix2 (0 : Fin 1) q) = v (ix1 q) :=
  shapeCast_apply _ _ (ix2 (0 : Fin 1) q) (ix1 q) (by
    rw [Shape.rowMajor_val_one, Shape.rowMajor_val_two]; show q.val = 0 * 512 + q.val; omega)

/-! ## The body's values at (r, q) -/

variable (v0 v1 v2 v3 v4 v6 : Vec Ideal S512x512 .f32) (v5 v9 : Vec Ideal S512 .f32)

/-- The body's membrane before the reset is the cell's, of the block's row `r` and neuron `q`. -/
theorem membrane_apply (r q : Fin 512) :
    k0_pay5 v0 v1 v2 v3 v4 v5 v6 v9 (ix2 r q)
      = AdLIF.membrane (v9 (ix1 q)) (v1 (ix2 r q)) (v3 (ix2 r q))
          (AdLIF.soma (∑ k : Fin 512, v0 (ix2 r k) * v4 (ix2 q k)) (v5 (ix1 q)) (∑ k : Fin 512, v2 (ix2 r k) * v6 (ix2 q k))) := by
  unfold k0_pay5
  simp only [ValueIdx.addf_apply, ValueIdx.mulf_apply, ValueIdx.subf_apply, ValueIdx.broadcast_apply, rowRepeated_apply]
  rw [asRow_apply v9 q, asRow_apply v5 q, drive_apply v0 v4 r q, drive_apply v2 v6 r q]
  rfl

/-- The body's spike bit at (r, q) is the cell's, of the body's membrane there. -/
theorem fired_apply (r q : Fin 512) :
    k0_pay6 v0 v1 v2 v3 v4 v5 v6 v9 (ix2 r q) = AdLIF.fired (k0_pay5 v0 v1 v2 v3 v4 v5 v6 v9 (ix2 r q)) := by
  unfold k0_pay6
  rfl

/-- The body turns the bit into a number by widening it with zeros and reading it signed: the bit read unsigned. -/
theorem spike_apply (b : IVec S512x512 1) (i : S512x512.Idx) :
    k0_pay1 (F := Ideal) b i = ((((b i).toNat : ℝ)) : EReal) := by
  unfold k0_pay1
  exact AdLIF.signed_widened_eq_unsigned (b i)

/-- The body's reset at an index: the membrane times one minus the spike. -/
theorem reset_apply (u : FVec Ideal S512x512 .f32) (b : IVec S512x512 1) (i : S512x512.Idx) :
    k0_pay2 u b i = u i * (AdLIF.one - ((((b i).toNat : ℝ)) : EReal)) := by
  unfold k0_pay2
  simp only [ValueIdx.mulf_apply, ValueIdx.subf_apply, ValueIdx.broadcast_apply, spike_apply]
  rfl

variable (v7 v8 v10 : Vec Ideal S512 .f32)

/-- The body's adaptation at (r, q) is the cell's, of the block's entries there and neuron `q`'s numbers. -/
theorem adapt_apply (r q : Fin 512) :
    k0_pay3 v1 v2 v3 v7 v8 (k0_pay4 v10) (ix2 r q)
      = AdLIF.adapt (v10 (ix1 q)) (v3 (ix2 r q)) (v7 (ix1 q)) (v1 (ix2 r q)) (v8 (ix1 q)) (v2 (ix2 r q)) := by
  unfold k0_pay3 k0_pay4
  simp only [ValueIdx.addf_apply, ValueIdx.mulf_apply, ValueIdx.subf_apply, ValueIdx.broadcast_apply, rowRepeated_apply]
  rw [asRow_apply v10 q, asRow_apply v7 q, asRow_apply v8 q]
  rfl

/-! ## A block against the arrays it was cut from

  The block holds batch rows of the arrays: its row `r` is the arrays' row `p`; the matrices and the per-neuron vectors
  are held whole, neuron `q` of the block being neuron `q'` of the layer. Under those reads the body's values at (r, q)
  are the layer's at (p, q'). -/

section block
variable (X U Z W : AdLIF.SBatch.Idx → EReal) (Wt Rc : AdLIF.SSquare.Idx → EReal) (bias du a b dw : AdLIF.SRow.Idx → EReal)
variable (p : Fin 16384) (r q q' : Fin 512)

theorem membrane_block
    (hx : ∀ k, v0 (ix2 r k) = X (ix2 p k)) (hu : v1 (ix2 r q) = U (ix2 p q')) (hz : ∀ k, v2 (ix2 r k) = Z (ix2 p k))
    (hw : v3 (ix2 r q) = W (ix2 p q')) (hWt : ∀ k, v4 (ix2 q k) = Wt (ix2 q' k)) (hbias : v5 (ix1 q) = bias (ix1 q'))
    (hRc : ∀ k, v6 (ix2 q k) = Rc (ix2 q' k)) (hdu : v9 (ix1 q) = du (ix1 q')) :
    k0_pay5 v0 v1 v2 v3 v4 v5 v6 v9 (ix2 r q) = AdLIF.membraneAt X U Z W Wt bias Rc du p q' := by
  rw [membrane_apply, hu, hw, hbias, hdu]
  simp only [hx, hz, hWt, hRc]
  rfl

theorem spikes_block
    (hx : ∀ k, v0 (ix2 r k) = X (ix2 p k)) (hu : v1 (ix2 r q) = U (ix2 p q')) (hz : ∀ k, v2 (ix2 r k) = Z (ix2 p k))
    (hw : v3 (ix2 r q) = W (ix2 p q')) (hWt : ∀ k, v4 (ix2 q k) = Wt (ix2 q' k)) (hbias : v5 (ix1 q) = bias (ix1 q'))
    (hRc : ∀ k, v6 (ix2 q k) = Rc (ix2 q' k)) (hdu : v9 (ix1 q) = du (ix1 q')) :
    k0_pay1 (F := Ideal) (k0_pay6 v0 v1 v2 v3 v4 v5 v6 v9) (ix2 r q) = AdLIF.spike (AdLIF.membraneAt X U Z W Wt bias Rc du p q') := by
  rw [spike_apply, fired_apply, membrane_block v0 v1 v2 v3 v4 v6 v5 v9 X U Z W Wt Rc bias du p r q q' hx hu hz hw hWt hbias hRc hdu]
  rfl

theorem potentials_block
    (hx : ∀ k, v0 (ix2 r k) = X (ix2 p k)) (hu : v1 (ix2 r q) = U (ix2 p q')) (hz : ∀ k, v2 (ix2 r k) = Z (ix2 p k))
    (hw : v3 (ix2 r q) = W (ix2 p q')) (hWt : ∀ k, v4 (ix2 q k) = Wt (ix2 q' k)) (hbias : v5 (ix1 q) = bias (ix1 q'))
    (hRc : ∀ k, v6 (ix2 q k) = Rc (ix2 q' k)) (hdu : v9 (ix1 q) = du (ix1 q')) :
    k0_pay2 (k0_pay5 v0 v1 v2 v3 v4 v5 v6 v9) (k0_pay6 v0 v1 v2 v3 v4 v5 v6 v9) (ix2 r q)
      = AdLIF.reset (AdLIF.membraneAt X U Z W Wt bias Rc du p q') := by
  rw [reset_apply, fired_apply, membrane_block v0 v1 v2 v3 v4 v6 v5 v9 X U Z W Wt Rc bias du p r q q' hx hu hz hw hWt hbias hRc hdu]
  rfl

theorem adaptation_block
    (hu : v1 (ix2 r q) = U (ix2 p q')) (hz : v2 (ix2 r q) = Z (ix2 p q')) (hw : v3 (ix2 r q) = W (ix2 p q'))
    (ha : v7 (ix1 q) = a (ix1 q')) (hb : v8 (ix1 q) = b (ix1 q')) (hdw : v10 (ix1 q) = dw (ix1 q')) :
    k0_pay3 v1 v2 v3 v7 v8 (k0_pay4 v10) (ix2 r q)
      = AdLIF.adapt (dw (ix1 q')) (W (ix2 p q')) (a (ix1 q')) (U (ix2 p q')) (b (ix1 q')) (Z (ix2 p q')) := by
  rw [adapt_apply, hu, hz, hw, ha, hb, hdw]

end block

end Cert.KernelIdeal.CellValue

end
-- ==== Proof.KernelArrays.lean ====
/-
  From blocks to arrays: the kernel's three result arrays are the layer's spikes, potentials and adaptation.

  The grid has 32 points. At point `t` each batch array is read, and each result written, through the block of batch
  rows 512 t … 512 t + 511, all 512 neurons wide; the two matrices and the five per-neuron vectors are held whole at every
  point. So entry (r, k) of a batch block is entry (512 t + r, k) of its array, and a block of a matrix or of a vector is
  the matrix or the vector. With the body's values at a block index (the module before), what point `t` writes back is
  block `t` of the layer's function; batch row `p` lies in the block of point `p / 512`, so the 32 blocks cover each
  result array, which therefore ends holding the layer's function everywhere.
-/
import proofs.«165442_j25400436588603_1_alg».proof.Proof.Gen.KernelIdeal.Value
import proofs.«165442_j25400436588603_1_alg».proof.Proof.KernelPayload

noncomputable section

open Idealize.ShloMosaic Idealize.ShloMosaic.TcCoe Idealize.SL.Sem
open Idealize.ShloMosaic.Pipeline (Dat)
open Idealize.ShloMosaic.ValueIdx (ix1 ix2)

namespace Cert.KernelIdeal.CellValue

open Cert.KernelIdeal Cert.KernelIdeal.Gen

variable (m : (ℓ : Loc nD τ sig) → Buf (Elt Ideal) ℓ) (ρ : Dev nD → PrngReg)

/-! ## The windows' block indices at a grid point, decided over the 32 points -/

theorem idx_batch0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_batch1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_batch2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx_batch3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx_square4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx_row5 : ∀ t : Fin cfg0.N, win0_5.index t (0 : Fin 1) = 0 :=
  (by decide +kernel : ∀ t : Fin grid0.N, win0_5.index t (0 : Fin 1) = 0)
theorem idx_square6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx_row7 : ∀ t : Fin cfg0.N, win0_7.index t (0 : Fin 1) = 0 :=
  (by decide +kernel : ∀ t : Fin grid0.N, win0_7.index t (0 : Fin 1) = 0)
theorem idx_row8 : ∀ t : Fin cfg0.N, win0_8.index t (0 : Fin 1) = 0 :=
  (by decide +kernel : ∀ t : Fin grid0.N, win0_8.index t (0 : Fin 1) = 0)
theorem idx_row9 : ∀ t : Fin cfg0.N, win0_9.index t (0 : Fin 1) = 0 :=
  (by decide +kernel : ∀ t : Fin grid0.N, win0_9.index t (0 : Fin 1) = 0)
theorem idx_row10 : ∀ t : Fin cfg0.N, win0_10.index t (0 : Fin 1) = 0 :=
  (by decide +kernel : ∀ t : Fin grid0.N, win0_10.index t (0 : Fin 1) = 0)
theorem idx_out11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)
theorem idx_out12 : ∀ t : Fin cfg0.N, win0_12.index t (0 : Fin 2) = t.val ∧ win0_12.index t (1 : Fin 2) = 0 :=
  (by decide +kernel : ∀ t : Fin grid0.N, win0_12.index t (0 : Fin 2) = t.val ∧ win0_12.index t (1 : Fin 2) = 0)
theorem idx_out13 : ∀ t : Fin cfg0.N, win0_13.index t (0 : Fin 2) = t.val ∧ win0_13.index t (1 : Fin 2) = 0 :=
  (by decide +kernel : ∀ t : Fin grid0.N, win0_13.index t (0 : Fin 2) = t.val ∧ win0_13.index t (1 : Fin 2) = 0)

/-! ## A block's coordinates in its array: block index times 512, plus the coordinate inside the block -/

/-- A block of batch rows at block index (t, 0): its entry (r, k) is the array's entry (p, k), `p = 512 t + r`. -/
theorem batch_coords {n0 n1 t : Nat} (h0 : n0 = t) (h1 : n1 = 0) (r k : Fin 512) (p : Fin 16384) (hp : p.val = t * 512 + r.val)
    (e : AdLIF.SBatch.Idx) (he0 : (e 0).val = n0 * 512 + 1 * r.val) (he1 : (e 1).val = n1 * 512 + 1 * k.val) : e = ix2 p k := by
  funext a; apply Fin.ext
  match a with
  | ⟨0, _⟩ => show (e 0).val = p.val; omega
  | ⟨1, _⟩ => show (e 1).val = k.val; omega

/-- A matrix held whole, block index (0, 0): its entry (q, k) is the matrix's entry (q, k). -/
theorem square_coords {n0 n1 : Nat} (h0 : n0 = 0) (h1 : n1 = 0) (q k : Fin 512)
    (e : AdLIF.SSquare.Idx) (he0 : (e 0).val = n0 * 512 + 1 * q.val) (he1 : (e 1).val = n1 * 512 + 1 * k.val) : e = ix2 q k := by
  funext a; apply Fin.ext
  match a with
  | ⟨0, _⟩ => show (e 0).val = q.val; omega
  | ⟨1, _⟩ => show (e 1).val = k.val; omega

/-- A per-neuron vector held whole, block index (0): its entry `q` is the vector's entry `q`. -/
theorem row_coords {n0 : Nat} (h0 : n0 = 0) (q : Fin 512)
    (e : AdLIF.SRow.Idx) (he0 : (e 0).val = n0 * 512 + 1 * q.val) : e = ix1 q := by
  funext a; apply Fin.ext
  match a with
  | ⟨0, _⟩ => show (e 0).val = q.val; omega

/-! ## Each input window's block, read back to its array -/

section reads
variable (c : Dev nD) (t : Fin cfg0.N)

/-- The input block at point `t`: rows 512 t … of the input array. -/
theorem read_input (r k : Fin 512) (p : Fin 16384) (hp : p.val = t.val * 512 + r.val) :
    iblk m c 0 t (ix2 r k) = V m c main_arg0 (ix2 p k) := by
  obtain ⟨e0, e1⟩ := idx_batch0 t
  show V m c main_arg0 (((cfg0.win 0).blk t).view.emb (ix2 r k)) = V m c main_arg0 (ix2 p k)
  rw [batch_coords e0 e1 r k p hp (((cfg0.win 0).blk t).view.emb (ix2 r k)) rfl rfl]

/-- The previous potentials' block at point `t`. -/
theorem read_potential (r k : Fin 512) (p : Fin 16384) (hp : p.val = t.val * 512 + r.val) :
    iblk m c 1 t (ix2 r k) = V m c main_arg1 (ix2 p k) := by
  obtain ⟨e0, e1⟩ := idx_batch1 t
  show V m c main_arg1 (((cfg0.win 1).blk t).view.emb (ix2 r k)) = V m c main_arg1 (ix2 p k)
  rw [batch_coords e0 e1 r k p hp (((cfg0.win 1).blk t).view.emb (ix2 r k)) rfl rfl]

/-- The previous spikes' block at point `t`. -/
theorem read_spike (r k : Fin 512) (p : Fin 16384) (hp : p.val = t.val * 512 + r.val) :
    iblk m c 2 t (ix2 r k) = V m c main_arg2 (ix2 p k) := by
  obtain ⟨e0, e1⟩ := idx_batch2 t
  show V m c main_arg2 (((cfg0.win 2).blk t).view.emb (ix2 r k)) = V m c main_arg2 (ix2 p k)
  rw [batch_coords e0 e1 r k p hp (((cfg0.win 2).blk t).view.emb (ix2 r k)) rfl rfl]

/-- The previous adaptation's block at point `t`. -/
theorem read_adaptation (r k : Fin 512) (p : Fin 16384) (hp : p.val = t.val * 512 + r.val) :
    iblk m c 3 t (ix2 r k) = V m c main_arg3 (ix2 p k) := by
  obtain ⟨e0, e1⟩ := idx_batch3 t
  show V m c main_arg3 (((cfg0.win 3).blk t).view.emb (ix2 r k)) = V m c main_arg3 (ix2 p k)
  rw [batch_coords e0 e1 r k p hp (((cfg0.win 3).blk t).view.emb (ix2 r k)) rfl rfl]

/-- The weight matrix, whole at every point. -/
theorem read_weight (q k : Fin 512) : iblk m c 4 t (ix2 q k) = V m c main_arg4 (ix2 q k) := by
  obtain ⟨e0, e1⟩ := idx_square4 t
  show V m c main_arg4 (((cfg0.win 4).blk t).view.emb (ix2 q k)) = V m c main_arg4 (ix2 q k)
  rw [square_coords e0 e1 q k (((cfg0.win 4).blk t).view.emb (ix2 q k)) rfl rfl]

/-- The bias, whole at every point. -/
theorem read_bias (q : Fin 512) : iblk m c 5 t (ix1 q) = V m c main_arg5 (ix1 q) := by
  have e0 := idx_row5 t
  show V m c main_arg5 (((cfg0.win 5).blk t).view.emb (ix1 q)) = V m c main_arg5 (ix1 q)
  rw [row_coords e0 q (((cfg0.win 5).blk t).view.emb (ix1 q)) rfl]

/-- The recurrent matrix, whole at every point. -/
theorem read_recurrent (q k : Fin 512) : iblk m c 6 t (ix2 q k) = V m c main_arg6 (ix2 q k) := by
  obtain ⟨e0, e1⟩ := idx_square6 t
  show V m c main_arg6 (((cfg0.win 6).blk t).view.emb (ix2 q k)) = V m c main_arg6 (ix2 q k)
  rw [square_coords e0 e1 q k (((cfg0.win 6).blk t).view.emb (ix2 q k)) rfl rfl]

/-- The gain on the previous potential, whole at every point. -/
theorem read_gainU (q : Fin 512) : iblk m c 7 t (ix1 q) = V m c main_arg7 (ix1 q) := by
  have e0 := idx_row7 t
  show V m c main_arg7 (((cfg0.win 7).blk t).view.emb (ix1 q)) = V m c main_arg7 (ix1 q)
  rw [row_coords e0 q (((cfg0.win 7).blk t).view.emb (ix1 q)) rfl]

/-- The gain on the previous spike, whole at every point. -/
theorem read_gainZ (q : Fin 512) : iblk m c 8 t (ix1 q) = V m c main_arg8 (ix1 q) := by
  have e0 := idx_row8 t
  show V m c main_arg8 (((cfg0.win 8).blk t).view.emb (ix1 q)) = V m c main_arg8 (ix1 q)
  rw [row_coords e0 q (((cfg0.win 8).blk t).view.emb (ix1 q)) rfl]

/-- The membrane's decay, whole at every point. -/
theorem read_decayU (q : Fin 512) : iblk m c 9 t (ix1 q) = V m c main_arg9 (ix1 q) := by
  have e0 := idx_row9 t
  show V m c main_arg9 (((cfg0.win 9).blk t).view.emb (ix1 q)) = V m c main_arg9 (ix1 q)
  rw [row_coords e0 q (((cfg0.win 9).blk t).view.emb (ix1 q)) rfl]

/-- The adaptation's decay, whole at every point. -/
theorem read_decayW (q : Fin 512) : iblk m c 10 t (ix1 q) = V m c main_arg10 (ix1 q) := by
  have e0 := idx_row10 t
  show V m c main_arg10 (((cfg0.win 10).blk t).view.emb (ix1 q)) = V m c main_arg10 (ix1 q)
  rw [row_coords e0 q (((cfg0.win 10).blk t).view.emb (ix1 q)) rfl]

end reads

/-! ## What a point writes back is its block of the layer's function -/

theorem origin2 : (![0, 0] : Fin 2 → Nat) = fun _ => 0 := funext fun a => by fin_cases a <;> rfl
theorem origin1 : (![0] : Fin 1 → Nat) = fun _ => 0 := funext fun a => by fin_cases a <;> rfl

/-- The batch row under row `r` of point `t`'s blocks. -/
def rowOf (t : Fin cfg0.N) (r : Fin 512) : Fin 16384 :=
  ⟨t.val * 512 + r.val, by
    have ht : t.val < grid0.N := t.isLt
    rw [N_0] at ht
    have hr := r.isLt
    omega⟩

theorem rowOf_val (t : Fin cfg0.N) (r : Fin 512) : (rowOf t r).val = t.val * 512 + r.val := rfl

section writes
variable (c : Dev nD) (t : Fin cfg0.N)

/-- Entry (r, q) of the spikes' block at point `t` is the array's entry (512 t + r, q). -/
theorem entry_spikes (r q : Fin 512) : ((cfg0.win 11).blk t).view.emb (ix2 r q) = ix2 (rowOf t r) q := by
  obtain ⟨o0, o1⟩ := idx_out11 t
  exact batch_coords o0 o1 r q (rowOf t r) rfl (((cfg0.win 11).blk t).view.emb (ix2 r q)) rfl rfl

/-- The same for the potentials' block. -/
theorem entry_potentials (r q : Fin 512) : ((cfg0.win 12).blk t).view.emb (ix2 r q) = ix2 (rowOf t r) q := by
  obtain ⟨o0, o1⟩ := idx_out12 t
  exact batch_coords o0 o1 r q (rowOf t r) rfl (((cfg0.win 12).blk t).view.emb (ix2 r q)) rfl rfl

/-- The same for the adaptation's block. -/
theorem entry_adaptation (r q : Fin 512) : ((cfg0.win 13).blk t).view.emb (ix2 r q) = ix2 (rowOf t r) q := by
  obtain ⟨o0, o1⟩ := idx_out13 t
  exact batch_coords o0 o1 r q (rowOf t r) rfl (((cfg0.win 13).blk t).view.emb (ix2 r q)) rfl rfl

/-- Point `t` writes back block `t` of the layer's spikes. -/
theorem flushed_spikes :
    (dats m 0 c).flushed 11 t = ((cfg0.win 11).blk t).view.read (Elt Ideal)
      (AdLIF.spikes (V m c main_arg0) (V m c main_arg1) (V m c main_arg2) (V m c main_arg3) (V m c main_arg4) (V m c main_arg5)
        (V m c main_arg6) (V m c main_arg9)) := by
  rw [Value.flushed11]
  unfold out0_11
  rw [View.canon_unit_zero origin2]
  simp only [View.ld_unit_zero (S := S512x512) origin2, View.ld_unit_zero (S := S512) origin1]
  refine funext fun (j : S512x512.Idx) => ?_
  obtain ⟨r, q, rfl⟩ : ∃ (r q : Fin 512), j = ix2 r q := ⟨j 0, j 1, ValueIdx.eq_ix2 j⟩
  show k0_pay1 (F := Ideal) (k0_pay6 (iblk m c 0 t) (iblk m c 1 t) (iblk m c 2 t) (iblk m c 3 t) (iblk m c 4 t) (iblk m c 5 t)
        (iblk m c 6 t) (iblk m c 9 t)) (ix2 r q)
      = AdLIF.spikes (V m c main_arg0) (V m c main_arg1) (V m c main_arg2) (V m c main_arg3) (V m c main_arg4) (V m c main_arg5)
          (V m c main_arg6) (V m c main_arg9) (((cfg0.win 11).blk t).view.emb (ix2 r q))
  rw [entry_spikes t r q]
  exact spikes_block (iblk m c 0 t) (iblk m c 1 t) (iblk m c 2 t) (iblk m c 3 t) (iblk m c 4 t) (iblk m c 6 t) (iblk m c 5 t) (iblk m c 9 t)
    (V m c main_arg0) (V m c main_arg1) (V m c main_arg2) (V m c main_arg3) (V m c main_arg4) (V m c main_arg6) (V m c main_arg5) (V m c main_arg9)
    (rowOf t r) r q q
    (fun k => read_input m c t r k (rowOf t r) rfl) (read_potential m c t r q (rowOf t r) rfl)
    (fun k => read_spike m c t r k (rowOf t r) rfl) (read_adaptation m c t r q (rowOf t r) rfl)
    (fun k => read_weight m c t q k) (read_bias m c t q) (fun k => read_recurrent m c t q k) (read_decayU m c t q)

/-- Point `t` writes back block `t` of the layer's potentials. -/
theorem flushed_potentials :
    (dats m 0 c).flushed 12 t = ((cfg0.win 12).blk t).view.read (Elt Ideal)
      (AdLIF.potentials (V m c main_arg0) (V m c main_arg1) (V m c main_arg2) (V m c main_arg3) (V m c main_arg4) (V m c main_arg5)
        (V m c main_arg6) (V m c main_arg9)) := by
  rw [Value.flushed12]
  unfold out0_12
  rw [View.canon_unit_zero origin2]
  simp only [View.ld_unit_zero (S := S512x512) origin2, View.ld_unit_zero (S := S512) origin1]
  refine funext fun (j : S512x512.Idx) => ?_
  obtain ⟨r, q, rfl⟩ : ∃ (r q : Fin 512), j = ix2 r q := ⟨j 0, j 1, ValueIdx.eq_ix2 j⟩
  show k0_pay2 (k0_pay5 (iblk m c 0 t) (iblk m c 1 t) (iblk m c 2 t) (iblk m c 3 t) (iblk m c 4 t) (iblk m c 5 t) (iblk m c 6 t) (iblk m c 9 t))
        (k0_pay6 (iblk m c 0 t) (iblk m c 1 t) (iblk m c 2 t) (iblk m c 3 t) (iblk m c 4 t) (iblk m c 5 t) (iblk m c 6 t) (iblk m c 9 t)) (ix2 r q)
      = AdLIF.potentials (V m c main_arg0) (V m c main_arg1) (V m c main_arg2) (V m c main_arg3) (V m c main_arg4) (V m c main_arg5)
          (V m c main_arg6) (V m c main_arg9) (((cfg0.win 12).blk t).view.emb (ix2 r q))
  rw [entry_potentials t r q]
  exact potentials_block (iblk m c 0 t) (iblk m c 1 t) (iblk m c 2 t) (iblk m c 3 t) (iblk m c 4 t) (iblk m c 6 t) (iblk m c 5 t) (iblk m c 9 t)
    (V m c main_arg0) (V m c main_arg1) (V m c main_arg2) (V m c main_arg3) (V m c main_arg4) (V m c main_arg6) (V m c main_arg5) (V m c main_arg9)
    (rowOf t r) r q q
    (fun k => read_input m c t r k (rowOf t r) rfl) (read_potential m c t r q (rowOf t r) rfl)
    (fun k => read_spike m c t r k (rowOf t r) rfl) (read_adaptation m c t r q (rowOf t r) rfl)
    (fun k => read_weight m c t q k) (read_bias m c t q) (fun k => read_recurrent m c t q k) (read_decayU m c t q)

/-- Point `t` writes back block `t` of the layer's adaptation. -/
theorem flushed_adaptation :
    (dats m 0 c).flushed 13 t = ((cfg0.win 13).blk t).view.read (Elt Ideal)
      (AdLIF.adaptation (V m c main_arg1) (V m c main_arg2) (V m c main_arg3) (V m c main_arg7) (V m c main_arg8) (V m c main_arg10)) := by
  rw [Value.flushed13]
  unfold out0_13
  rw [View.canon_unit_zero origin2]
  simp only [View.ld_unit_zero (S := S512x512) origin2, View.ld_unit_zero (S := S512) origin1]
  refine funext fun (j : S512x512.Idx) => ?_
  obtain ⟨r, q, rfl⟩ : ∃ (r q : Fin 512), j = ix2 r q := ⟨j 0, j 1, ValueIdx.eq_ix2 j⟩
  show k0_pay3 (iblk m c 1 t) (iblk m c 2 t) (iblk m c 3 t) (iblk m c 7 t) (iblk m c 8 t) (k0_pay4 (iblk m c 10 t)) (ix2 r q)
      = AdLIF.adaptation (V m c main_arg1) (V m c main_arg2) (V m c main_arg3) (V m c main_arg7) (V m c main_arg8) (V m c main_arg10)
          (((cfg0.win 13).blk t).view.emb (ix2 r q))
  rw [entry_adaptation t r q]
  exact adaptation_block (iblk m c 1 t) (iblk m c 2 t) (iblk m c 3 t) (iblk m c 7 t) (iblk m c 8 t) (iblk m c 10 t)
    (V m c main_arg1) (V m c main_arg2) (V m c main_arg3) (V m c main_arg7) (V m c main_arg8) (V m c main_arg10)
    (rowOf t r) r q q
    (read_potential m c t r q (rowOf t r) rfl) (read_spike m c t r q (rowOf t r) rfl) (read_adaptation m c t r q (rowOf t r) rfl)
    (read_gainU m c t q) (read_gainZ m c t q) (read_decayW m c t q)

end writes

/-! ## The 32 blocks cover each result array -/

/-- The point whose blocks hold batch row `p`: `p / 512`. -/
def pointOf (i : S16384x512.Idx) : Fin cfg0.N :=
  ⟨(i 0).val / 512, by
    have hi : (i 0).val < 16384 := (i 0).isLt
    show (i 0).val / 512 < grid0.N
    rw [N_0]
    omega⟩

theorem pointOf_val (i : S16384x512.Idx) : (pointOf i).val = (i 0).val / 512 := rfl

/-- An index lies in point `t`'s block of the spikes iff each coordinate lies in the block's range on its axis. -/
theorem mem_block_spikes (t : Fin cfg0.N) (i : S16384x512.Idx) :
    i ∈ ((cfg0.win 11).blk t).view.set ↔ ∀ a : Fin 2, win0_11.index t a * S512x512.size a ≤ (i a).val ∧ (i a).val < win0_11.index t a * S512x512.size a + S512x512.size a := by
  show i ∈ ((View.whole main_v0_0).slice (win0_11.rect t)).set ↔ _
  rw [View.set_slice_whole, Rect.mem_set_unit]
  exact Iff.rfl

/-- The same for the potentials. -/
theorem mem_block_potentials (t : Fin cfg0.N) (i : S16384x512.Idx) :
    i ∈ ((cfg0.win 12).blk t).view.set ↔ ∀ a : Fin 2, win0_12.index t a * S512x512.size a ≤ (i a).val ∧ (i a).val < win0_12.index t a * S512x512.size a + S512x512.size a := by
  show i ∈ ((View.whole main_v0_1).slice (win0_12.rect t)).set ↔ _
  rw [View.set_slice_whole, Rect.mem_set_unit]
  exact Iff.rfl

/-- The same for the adaptation. -/
theorem mem_block_adaptation (t : Fin cfg0.N) (i : S16384x512.Idx) :
    i ∈ ((cfg0.win 13).blk t).view.set ↔ ∀ a : Fin 2, win0_13.index t a * S512x512.size a ≤ (i a).val ∧ (i a).val < win0_13.index t a * S512x512.size a + S512x512.size a := by
  show i ∈ ((View.whole main_v0_2).slice (win0_13.rect t)).set ↔ _
  rw [View.set_slice_whole, Rect.mem_set_unit]
  exact Iff.rfl

/-- Every index of the spikes' array lies in the block of the point `p / 512`, which writes back. -/
theorem cover_spikes (i : S16384x512.Idx) :
    ∃ t : Fin cfg0.N, (cfg0.win 11).flush t = true ∧ i ∈ ((cfg0.win 11).blk t).view.set := by
  refine ⟨pointOf i, flush0_11 _, ?_⟩
  rw [mem_block_spikes]
  obtain ⟨o0, o1⟩ := idx_out11 (pointOf i)
  have hpt := pointOf_val i
  have hi0 : (i 0).val < 16384 := (i 0).isLt
  have hi1 : (i 1).val < 512 := (i 1).isLt
  intro a
  match a with
  | ⟨0, _⟩ => show win0_11.index (pointOf i) (0 : Fin 2) * 512 ≤ (i 0).val ∧ (i 0).val < win0_11.index (pointOf i) (0 : Fin 2) * 512 + 512; omega
  | ⟨1, _⟩ => show win0_11.index (pointOf i) (1 : Fin 2) * 512 ≤ (i 1).val ∧ (i 1).val < win0_11.index (pointOf i) (1 : Fin 2) * 512 + 512; omega

/-- The same for the potentials' array. -/
theorem cover_potentials (i : S16384x512.Idx) :
    ∃ t : Fin cfg0.N, (cfg0.win 12).flush t = true ∧ i ∈ ((cfg0.win 12).blk t).view.set := by
  refine ⟨pointOf i, flush0_12 _, ?_⟩
  rw [mem_block_potentials]
  obtain ⟨o0, o1⟩ := idx_out12 (pointOf i)
  have hpt := pointOf_val i
  have hi0 : (i 0).val < 16384 := (i 0).isLt
  have hi1 : (i 1).val < 512 := (i 1).isLt
  intro a
  match a with
  | ⟨0, _⟩ => show win0_12.index (pointOf i) (0 : Fin 2) * 512 ≤ (i 0).val ∧ (i 0).val < win0_12.index (pointOf i) (0 : Fin 2) * 512 + 512; omega
  | ⟨1, _⟩ => show win0_12.index (pointOf i) (1 : Fin 2) * 512 ≤ (i 1).val ∧ (i 1).val < win0_12.index (pointOf i) (1 : Fin 2) * 512 + 512; omega

/-- The same for the adaptation's array. -/
theorem cover_adaptation (i : S16384x512.Idx) :
    ∃ t : Fin cfg0.N, (cfg0.win 13).flush t = true ∧ i ∈ ((cfg0.win 13).blk t).view.set := by
  refine ⟨pointOf i, flush0_13 _, ?_⟩
  rw [mem_block_adaptation]
  obtain ⟨o0, o1⟩ := idx_out13 (pointOf i)
  have hpt := pointOf_val i
  have hi0 : (i 0).val < 16384 := (i 0).isLt
  have hi1 : (i 1).val < 512 := (i 1).isLt
  intro a
  match a with
  | ⟨0, _⟩ => show win0_13.index (pointOf i) (0 : Fin 2) * 512 ≤ (i 0).val ∧ (i 0).val < win0_13.index (pointOf i) (0 : Fin 2) * 512 + 512; omega
  | ⟨1, _⟩ => show win0_13.index (pointOf i) (1 : Fin 2) * 512 ≤ (i 1).val ∧ (i 1).val < win0_13.index (pointOf i) (1 : Fin 2) * 512 + 512; omega

/-! ## The result arrays after the run -/

/-- The spikes' array ends holding the layer's spikes of the arrays as launched. -/
theorem final_spikes (c : Dev nD) :
    (dats m 0 c).arrAt 11 cfg0.N = AdLIF.spikes (V m c main_arg0) (V m c main_arg1) (V m c main_arg2) (V m c main_arg3) (V m c main_arg4)
      (V m c main_arg5) (V m c main_arg6) (V m c main_arg9) :=
  (dats m 0 c).arrAt_eq_of_cover 11 _ (fun t _ => flushed_spikes m c t) cover_spikes

/-- The potentials' array ends holding the layer's potentials. -/
theorem final_potentials (c : Dev nD) :
    (dats m 0 c).arrAt 12 cfg0.N = AdLIF.potentials (V m c main_arg0) (V m c main_arg1) (V m c main_arg2) (V m c main_arg3) (V m c main_arg4)
      (V m c main_arg5) (V m c main_arg6) (V m c main_arg9) :=
  (dats m 0 c).arrAt_eq_of_cover 12 _ (fun t _ => flushed_potentials m c t) cover_potentials

/-- The adaptation's array ends holding the layer's adaptation. -/
theorem final_adaptation (c : Dev nD) :
    (dats m 0 c).arrAt 13 cfg0.N = AdLIF.adaptation (V m c main_arg1) (V m c main_arg2) (V m c main_arg3) (V m c main_arg7) (V m c main_arg8)
      (V m c main_arg10) :=
  (dats m 0 c).arrAt_eq_of_cover 13 _ (fun t _ => flushed_adaptation m c t) cover_adaptation

/-- The kernel's run, read: every weakly fair execution ends with the three result arrays at the layer's spikes, potentials
    and adaptation of the argument arrays, and the arguments unchanged. -/
theorem run : θ_run defs (onTc (τ := τ) (main (F := Ideal))) ⟨m, fun _ => 0, ρ⟩ fun r => ∀ c : Dev nD,
      r.2.mem ((c : Thread nD τ).loc main_v0_0) = AdLIF.spikes (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg9))
      ∧ r.2.mem ((c : Thread nD τ).loc main_v0_1) = AdLIF.potentials (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg9))
      ∧ r.2.mem ((c : Thread nD τ).loc main_v0_2) = AdLIF.adaptation (m ((c : Thread nD τ).loc main_arg1)) (m ((c : Thread nD τ).loc main_arg2))
          (m ((c : Thread nD τ).loc main_arg3)) (m ((c : Thread nD τ).loc main_arg7)) (m ((c : Thread nD τ).loc main_arg8))
          (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final_spikes m c), (h c).2.1.trans (final_potentials m c),
      (h c).2.2.1.trans (final_adaptation m c), (h c).2.2.2⟩)
    (Value.run_blocks m ρ)

end Cert.KernelIdeal.CellValue

end
-- ==== Proof.RefSide.lean ====
/-
  The reference's three results are the layer's spikes, potentials and adaptation.

  Read at the index (p, q), each host operation of the reference is the matching operation of the cell: the two
  `dot_general`s against the transposed matrices are the two row dot products, a per-neuron vector broadcast along the
  batch reads neuron `q`'s number, and the pointwise operations are the extended reals' own. So the membrane before the
  reset is the layer's; the adaptation is the layer's with no further argument. The reference writes the spike as the
  straight-through estimator `step + (t - t) · slope`: with real argument arrays the distance `t` is real, so that is
  the plain step, whatever the slope's value; the potentials follow, since they read the spike.
-/
import proofs.«165442_j25400436588603_1_alg».proof.Proof.Gen.ReferenceIdeal.Read
import proofs.«165442_j25400436588603_1_alg».proof.Proof.Layer

noncomputable section

open Idealize.ShloMosaic Idealize.ShloMosaic.TcCoe
open Idealize.ShloMosaic.ValueIdx (ix1 ix2)
open scoped BigOperators

namespace Cert.ReferenceIdeal.RefValue

open Cert.ReferenceIdeal Cert.ReferenceIdeal.Read

variable (x0 x1 x2 x3 : (⟨S16384x512, .f32⟩ : BufTy).Contents (Elt Ideal))
variable (x4 x6 : (⟨S512x512, .f32⟩ : BufTy).Contents (Elt Ideal))
variable (x5 x7 x8 x9 x10 : (⟨S512, .f32⟩ : BufTy).Contents (Elt Ideal))

/-! ## Where each operation reads its operands, at the index (p, q) -/

section indices
variable (p : Fin 16384) (q k : Fin 512)

/-- A per-neuron vector broadcast along the batch reads neuron `q`'s entry (the bias). -/
theorem neuron_v3 : idx_main_v2 (idx_main_v3 (ix2 p q)) = ix1 q := by funext a; match a with | ⟨0, _⟩ => rfl
/-- The same for the membrane's decay. -/
theorem neuron_v9 : idx_main_v8 (idx_main_v9 (ix2 p q)) = ix1 q := by funext a; match a with | ⟨0, _⟩ => rfl
/-- The same for one minus the membrane's decay. -/
theorem neuron_v15 : idx_main_v14 (idx_main_v15 (ix2 p q)) = ix1 q := by funext a; match a with | ⟨0, _⟩ => rfl
/-- The same for the adaptation's decay. -/
theorem neuron_v38 : idx_main_v37 (idx_main_v38 (ix2 p q)) = ix1 q := by funext a; match a with | ⟨0, _⟩ => rfl
/-- The same for the gain on the previous potential. -/
theorem neuron_v43 : idx_main_v42 (idx_main_v43 (ix2 p q)) = ix1 q := by funext a; match a with | ⟨0, _⟩ => rfl
/-- The same for the gain on the previous spike. -/
theorem neuron_v46 : idx_main_v45 (idx_main_v46 (ix2 p q)) = ix1 q := by funext a; match a with | ⟨0, _⟩ => rfl
/-- The same for one minus the adaptation's decay. -/
theorem neuron_v50 : idx_main_v49 (idx_main_v50 (ix2 p q)) = ix1 q := by funext a; match a with | ⟨0, _⟩ => rfl

/-- The input drive's left factor: row `p` of the input, coordinate `k`. -/
theorem left_v1 : lidx_main_v1 (ix2 p q) k = ix2 p k := by funext a; match a with | ⟨0, _⟩ => rfl | ⟨1, _⟩ => rfl
/-- Its right factor, through the transpose: row `q` of the weight matrix, coordinate `k`. -/
theorem right_v1 : idx_main_v0 (ridx_main_v1 (ix2 p q) k) = ix2 q k := by funext a; match a with | ⟨0, _⟩ => rfl | ⟨1, _⟩ => rfl
/-- The recurrent drive's left factor: row `p` of the previous spikes, coordinate `k`. -/
theorem left_v6 : lidx_main_v6 (ix2 p q) k = ix2 p k := by funext a; match a with | ⟨0, _⟩ => rfl | ⟨1, _⟩ => rfl
/-- Its right factor, through the transpose: row `q` of the recurrent matrix, coordinate `k`. -/
theorem right_v6 : idx_main_v5 (ridx_main_v6 (ix2 p q) k) = ix2 q k := by funext a; match a with | ⟨0, _⟩ => rfl | ⟨1, _⟩ => rfl

end indices

/-! ## The membrane before the reset -/

/-- The reference's membrane at (p, q) is the layer's. -/
theorem membrane_eq (p : Fin 16384) (q : Fin 512) :
    val_main_v17 (F := Ideal) x0 x1 x2 x3 x4 x5 x6 x9 (ix2 p q) = AdLIF.membraneAt x0 x1 x2 x3 x4 x5 x6 x9 p q := by
  rw [val_main_v17_apply, val_main_v10_apply, val_main_v9_apply, val_main_v8_apply, val_main_v16_apply, val_main_v15_apply,
    val_main_v14_apply, val_main_v12_apply, val_main_v11_apply, val_main_cst_apply, val_main_v13_apply, val_main_v7_apply,
    val_main_v4_apply, val_main_v1_apply, val_main_v3_apply, val_main_v2_apply, val_main_v6_apply]
  simp only [val_main_v0_apply, val_main_v5_apply, neuron_v3, neuron_v9, neuron_v15, left_v1, right_v1, left_v6, right_v6]
  rfl

/-! ## The three results -/

/-- With real argument arrays the reference's first result is the layer's spikes: the estimator's correction vanishes. -/
theorem spikes_eq (hx : ∀ j, AdLIF.IsReal (x0 j)) (hu : ∀ j, AdLIF.IsReal (x1 j)) (hz : ∀ j, AdLIF.IsReal (x2 j))
    (hw : ∀ j, AdLIF.IsReal (x3 j)) (hWt : ∀ j, AdLIF.IsReal (x4 j)) (hbias : ∀ j, AdLIF.IsReal (x5 j))
    (hRc : ∀ j, AdLIF.IsReal (x6 j)) (hdu : ∀ j, AdLIF.IsReal (x9 j)) :
    val_main_v33 (F := Ideal) x0 x1 x2 x3 x4 x5 x6 x9 = AdLIF.spikes x0 x1 x2 x3 x4 x5 x6 x9 := by
  funext i
  obtain ⟨p, q, rfl⟩ : ∃ (p : Fin 16384) (q : Fin 512), i = ix2 p q := ⟨i 0, i 1, ValueIdx.eq_ix2 i⟩
  rw [val_main_v33_apply, val_main_v32_apply, val_main_v23_apply, val_main_v22_apply, val_main_v21_apply, val_main_v19_apply,
    val_main_v18_apply, val_main_cst_0_apply, val_main_v20_apply, val_main_cst_1_apply, membrane_eq]
  exact AdLIF.estimator_eq_step (AdLIF.isReal_distanceAt hx hu hz hw hWt hbias hRc hdu p q) _ _

/-- So its second result is the layer's potentials after the reset. -/
theorem potentials_eq (hx : ∀ j, AdLIF.IsReal (x0 j)) (hu : ∀ j, AdLIF.IsReal (x1 j)) (hz : ∀ j, AdLIF.IsReal (x2 j))
    (hw : ∀ j, AdLIF.IsReal (x3 j)) (hWt : ∀ j, AdLIF.IsReal (x4 j)) (hbias : ∀ j, AdLIF.IsReal (x5 j))
    (hRc : ∀ j, AdLIF.IsReal (x6 j)) (hdu : ∀ j, AdLIF.IsReal (x9 j)) :
    val_main_v36 (F := Ideal) x0 x1 x2 x3 x4 x5 x6 x9 = AdLIF.potentials x0 x1 x2 x3 x4 x5 x6 x9 := by
  funext i
  obtain ⟨p, q, rfl⟩ : ∃ (p : Fin 16384) (q : Fin 512), i = ix2 p q := ⟨i 0, i 1, ValueIdx.eq_ix2 i⟩
  rw [val_main_v36_apply, val_main_v35_apply, val_main_v34_apply, val_main_cst_5_apply, membrane_eq,
    spikes_eq x0 x1 x2 x3 x4 x6 x5 x9 hx hu hz hw hWt hbias hRc hdu]
  rfl

/-- The reference's third result is the layer's adaptation, for any argument arrays. -/
theorem adaptation_eq : val_main_v54 (F := Ideal) x1 x2 x3 x7 x8 x10 = AdLIF.adaptation x1 x2 x3 x7 x8 x10 := by
  funext i
  obtain ⟨p, q, rfl⟩ : ∃ (p : Fin 16384) (q : Fin 512), i = ix2 p q := ⟨i 0, i 1, ValueIdx.eq_ix2 i⟩
  rw [val_main_v54_apply, val_main_v39_apply, val_main_v38_apply, val_main_v37_apply, val_main_v53_apply, val_main_v51_apply,
    val_main_v50_apply, val_main_v49_apply, val_main_v41_apply, val_main_v40_apply, val_main_cst_6_apply, val_main_v48_apply,
    val_main_v44_apply, val_main_v43_apply, val_main_v42_apply, val_main_v47_apply, val_main_v46_apply, val_main_v45_apply,
    val_main_v52_apply, val_main_cst_7_apply]
  simp only [neuron_v38, neuron_v43, neuron_v46, neuron_v50]
  rfl

end Cert.ReferenceIdeal.RefValue

end
-- ==== Proof.Finite.lean ====
/-
  The precondition, read: every entry of the argument arrays is a real number.

  The precondition is the conjunction, over the eleven argument arrays, of "every entry's magnitude is below +∞".
  On the extended reals the magnitude of `x` is `max x (-x)`, which is +∞ exactly at the two infinities; so an entry
  that passes the test is a real number. The conjunction is a chain of one-bit `and`s, each conjunct an `and` over all
  the entries of one array, so it gives the test at every entry of every array. Of the eleven, the eight arrays the
  membrane depends on are kept: the spikes and the potentials need them real, the adaptation needs nothing.
-/
import proofs.«165442_j25400436588603_1_alg».proof.Proof.Gen.Pre_finite_inputs
import proofs.«165442_j25400436588603_1_alg».proof.Proof.Layer
import Idealize.ShloMosaic.Lib.ReduceAll
import Idealize.ShloMosaic.Lib.Affine

noncomputable section

open Idealize.ShloMosaic

namespace Cert.Pre_finite_inputs.Decode

open Cert.Pre_finite_inputs

/-- An extended real whose magnitude is below +∞ is a real number: at either infinity the magnitude is +∞. -/
theorem isReal_of_magnitude_lt_inf (x : EReal)
    (h : Ideal.cmp .olt (max x (-x)) (Ideal.ofBits .f32 0x7F800000#32) = 1#1) : AdLIF.IsReal x := by
  have hinf : Ideal.ofBits .f32 0x7F800000#32 = ⊤ := by simp [Ideal.ofBits, Ideal.ieee]
  rw [hinf] at h
  by_cases ht : x = ⊤
  · subst ht
    exfalso
    simp [Ideal.cmp] at h
  by_cases hb : x = ⊥
  · subst hb
    exfalso
    simp [Ideal.cmp] at h
  exact ⟨x.toReal, (EReal.coe_toReal ht hb).symm⟩

/-- Under the precondition, every entry of the input, of the previous potentials, spikes and adaptation, of the two
    matrices, of the bias and of the membrane's decay is a real number. -/
theorem reals_of_finite (a0 a1 a2 a3 : FVec Ideal S16384x512 .f32) (a4 a6 : FVec Ideal S512x512 .f32)
    (a5 a7 a8 a9 a10 : FVec Ideal S512 .f32)
    (h : fn (F := Ideal) a0 a1 a2 a3 a4 a5 a6 a7 a8 a9 a10 = fun _ => 1#1) :
    (∀ j, AdLIF.IsReal (a0 j)) ∧ (∀ j, AdLIF.IsReal (a1 j)) ∧ (∀ j, AdLIF.IsReal (a2 j)) ∧ (∀ j, AdLIF.IsReal (a3 j))
      ∧ (∀ j, AdLIF.IsReal (a4 j)) ∧ (∀ j, AdLIF.IsReal (a5 j)) ∧ (∀ j, AdLIF.IsReal (a6 j)) ∧ (∀ j, AdLIF.IsReal (a9 j)) := by
  have h0 := congrFun h ValueIdx.ix0
  dsimp only [fn, fn_part1, fn_part2, fn_part3] at h0
  obtain ⟨h0, t10⟩ := IntOp.andi_eq_one.mp h0
  obtain ⟨h0, t9⟩ := IntOp.andi_eq_one.mp h0
  obtain ⟨h0, t8⟩ := IntOp.andi_eq_one.mp h0
  obtain ⟨h0, t7⟩ := IntOp.andi_eq_one.mp h0
  obtain ⟨h0, t6⟩ := IntOp.andi_eq_one.mp h0
  obtain ⟨h0, t5⟩ := IntOp.andi_eq_one.mp h0
  obtain ⟨h0, t4⟩ := IntOp.andi_eq_one.mp h0
  obtain ⟨h0, t3⟩ := IntOp.andi_eq_one.mp h0
  obtain ⟨h0, t2⟩ := IntOp.andi_eq_one.mp h0
  obtain ⟨t0, t1⟩ := IntOp.andi_eq_one.mp h0
  refine ⟨fun j => ?_, fun j => ?_, fun j => ?_, fun j => ?_, fun j => ?_, fun j => ?_, fun j => ?_, fun j => ?_⟩
  · have e := Host.reduce_andi_all _ _ _ _ _ t0 j
    have e' : Ideal.cmp .olt (max (a0 j) (-(a0 j))) (Ideal.ofBits .f32 0x7F800000#32) = 1#1 := e
    exact isReal_of_magnitude_lt_inf (a0 j) e'
  · have e := Host.reduce_andi_all _ _ _ _ _ t1 j
    have e' : Ideal.cmp .olt (max (a1 j) (-(a1 j))) (Ideal.ofBits .f32 0x7F800000#32) = 1#1 := e
    exact isReal_of_magnitude_lt_inf (a1 j) e'
  · have e := Host.reduce_andi_all _ _ _ _ _ t2 j
    have e' : Ideal.cmp .olt (max (a2 j) (-(a2 j))) (Ideal.ofBits .f32 0x7F800000#32) = 1#1 := e
    exact isReal_of_magnitude_lt_inf (a2 j) e'
  · have e := Host.reduce_andi_all _ _ _ _ _ t3 j
    have e' : Ideal.cmp .olt (max (a3 j) (-(a3 j))) (Ideal.ofBits .f32 0x7F800000#32) = 1#1 := e
    exact isReal_of_magnitude_lt_inf (a3 j) e'
  · have e := Host.reduce_andi_all _ _ _ _ _ t4 j
    have e' : Ideal.cmp .olt (max (a4 j) (-(a4 j))) (Ideal.ofBits .f32 0x7F800000#32) = 1#1 := e
    exact isReal_of_magnitude_lt_inf (a4 j) e'
  · have e := Host.reduce_andi_all _ _ _ _ _ t5 j
    have e' : Ideal.cmp .olt (max (a5 j) (-(a5 j))) (Ideal.ofBits .f32 0x7F800000#32) = 1#1 := e
    exact isReal_of_magnitude_lt_inf (a5 j) e'
  · have e := Host.reduce_andi_all _ _ _ _ _ t6 j
    have e' : Ideal.cmp .olt (max (a6 j) (-(a6 j))) (Ideal.ofBits .f32 0x7F800000#32) = 1#1 := e
    exact isReal_of_magnitude_lt_inf (a6 j) e'
  · have e := Host.reduce_andi_all _ _ _ _ _ t9 j
    have e' : Ideal.cmp .olt (max (a9 j) (-(a9 j))) (Ideal.ofBits .f32 0x7F800000#32) = 1#1 := e
    exact isReal_of_magnitude_lt_inf (a9 j) e'

end Cert.Pre_finite_inputs.Decode

end
-- ==== Proof.lean ====
/-
  The adaptive leaky integrate-and-fire layer: a kernel over 32 blocks of 512 batch rows against its reference, equal over
  the extended reals.

  Both programs compute, for each of 16384 batch rows and 512 neurons, the soma current (the input row against the neuron's
  weight row, plus the bias, plus the previous spikes' row against the neuron's recurrent row), the membrane, the spike, the
  membrane after the reset, and the adaptation. The kernel casts its matmul operands to a narrower float format and works
  block by block; on the extended reals a change of format is the identity and the blocks tile the arrays, so its three
  result arrays are the layer's spikes, potentials and adaptation (Proof/KernelPayload.lean, Proof/KernelArrays.lean). The
  reference computes the membrane and the adaptation by the same operations on whole arrays, and writes the spike as the
  straight-through estimator `step + (t - t) · slope`, `t` the membrane's distance to the threshold. The precondition
  says every input entry is finite, so `t` is a real number, `t - t` is 0, and 0 times any extended real is 0: the
  estimator's value is the step, and the reference's results are the layer's too (Proof/Cell.lean, Proof/Layer.lean,
  Proof/RefSide.lean, Proof/Finite.lean). Without the precondition the two spikes differ where `t` is infinite.

  The frames of the two kernel programs are their generated frames; the reference's frame is its generated run with the
  results dropped. The ideal pass rewrote nothing, so there is nothing to preserve.
-/
import proofs.«165442_j25400436588603_1_alg».proof.Defs
import proofs.«165442_j25400436588603_1_alg».proof.Proof.Gen.Kernel
import proofs.«165442_j25400436588603_1_alg».proof.Proof.Gen.Kernel.Skeleton
import proofs.«165442_j25400436588603_1_alg».proof.Proof.Gen.Kernel.Launch
import proofs.«165442_j25400436588603_1_alg».proof.Proof.Gen.Kernel.Points
import proofs.«165442_j25400436588603_1_alg».proof.Proof.Gen.Kernel.Frame
import proofs.«165442_j25400436588603_1_alg».proof.Proof.Gen.KernelIdeal
import proofs.«165442_j25400436588603_1_alg».proof.Proof.Gen.KernelIdeal.Skeleton
import proofs.«165442_j25400436588603_1_alg».proof.Proof.Gen.KernelIdeal.Launch
import proofs.«165442_j25400436588603_1_alg».proof.Proof.Gen.KernelIdeal.Points
import proofs.«165442_j25400436588603_1_alg».proof.Proof.Gen.KernelIdeal.Frame
import proofs.«165442_j25400436588603_1_alg».proof.Proof.Gen.ReferenceIdeal
import proofs.«165442_j25400436588603_1_alg».proof.Proof.Gen.Pre_finite_inputs
import proofs.«165442_j25400436588603_1_alg».proof.Proof.Gen.KernelIdeal.Value
import proofs.«165442_j25400436588603_1_alg».proof.Proof.Gen.ReferenceIdeal.Run
import proofs.«165442_j25400436588603_1_alg».proof.Proof.Gen.ReferenceIdeal.Read
import proofs.«165442_j25400436588603_1_alg».proof.Proof.KernelArrays
import proofs.«165442_j25400436588603_1_alg».proof.Proof.RefSide
import proofs.«165442_j25400436588603_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments unchanged: its generated frame. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference runs and leaves its arguments unchanged: its run, the three results forgotten. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories agreeing on the eleven arguments, all finite, both programs end with the layer's spikes, potentials and
    adaptation of those arguments in their three results. -/
theorem algebraic : Cert.algebraic_KernelIdeal_ReferenceIdeal := by
  intro m ρ m' ρ' hpre hagree
  refine ⟨_, _, _, Cert.KernelIdeal.CellValue.run m ρ, ?_⟩
  refine (θ_run Cert.ReferenceIdeal.defs _ _).mono (fun _ h c => ?_) (Cert.ReferenceIdeal.Value.run (F := Ideal) m' ρ')
  obtain ⟨e0, e1, e2, e3, e4, e5, e6, e7, e8, e9, e10⟩ := hagree c
  obtain ⟨hx, hu, hz, hw, hWt, hbias, hRc, hdu⟩ :=
    Cert.Pre_finite_inputs.Decode.reals_of_finite _ _ _ _ _ _ _ _ _ _ _ (hpre c)
  refine ⟨?_, ?_, ?_, (h c).2.2.2⟩
  · rw [(h c).1, Cert.ReferenceIdeal.Read.val_main_v33_eq, e0, e1, e2, e3, e4, e5, e6, e9]
    exact Cert.ReferenceIdeal.RefValue.spikes_eq _ _ _ _ _ _ _ _ hx hu hz hw hWt hbias hRc hdu
  · rw [(h c).2.1, Cert.ReferenceIdeal.Read.val_main_v36_eq, e0, e1, e2, e3, e4, e5, e6, e9]
    exact Cert.ReferenceIdeal.RefValue.potentials_eq _ _ _ _ _ _ _ _ hx hu hz hw hWt hbias hRc hdu
  · rw [(h c).2.2.1, Cert.ReferenceIdeal.Read.val_main_v54_eq, e1, e2, e3, e7, e8, e10]
    exact Cert.ReferenceIdeal.RefValue.adaptation_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
